-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x4 : Shape := ⟨3, ![4, 16384, 4]⟩
abbrev S4x2048x3 : Shape := ⟨3, ![4, 2048, 3]⟩
abbrev S_ : Shape := ⟨0, ![]⟩

class Facts : Prop where
  bcast_S_S4x16384x4 : S_.BroadcastsInDim S4x16384x4 (![] : Fin 0 → Fin S4x16384x4.rank)
  reducesTo_S4x16384x4_S_d0_1_2 : S4x16384x4.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_

variable [Facts]

def fn {F : FTy → Type} [FloatOps F] (main_arg0 : FVec F S4x16384x4 .f32) (main_arg1 : FVec F S4x2048x3 .f32) : IVec S_ 1 :=
  let main_v0 : FVec F S4x16384x4 .f32 := Host.absf main_arg0
  let main_cst : FVec F S_ .f32 := constant S_ .f32 0x7F800000#32
  let main_v1 : FVec F S4x16384x4 .f32 := broadcastInDim S4x16384x4 ![] bcast_S_S4x16384x4 main_cst
  let main_v2 : IVec S4x16384x4 1 := cmpf .olt main_v0 main_v1
  let main_c : IVec S_ 1 := constantI S_ 1 1#1
  let main_v3 : IVec S_ 1 := (fun x v => Host.reduce IntOp.andi x v reducesTo_S4x16384x4_S_d0_1_2 h_S_) main_v2 main_c
  let main_v4 : FVec F S4x2048x3 .f32 := Host.absf main_arg1
  let main_cst_0 : FVec F S_ .f32 := constant S_ .f32 0x7F800000#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  main_v8
-- ==== Kernel.lean ====
abbrev S4x16384x4 : Shape := ⟨3, ![4, 16384, 4]⟩
abbrev S4x2048x3 : Shape := ⟨3, ![4, 2048, 3]⟩
abbrev S4x16384x1 : Shape := ⟨3, ![4, 16384, 1]⟩
abbrev S4x2048x1 : Shape := ⟨3, ![4, 2048, 1]⟩
abbrev S1x1024x4 : Shape := ⟨3, ![1, 1024, 4]⟩
abbrev S1x2048x3 : Shape := ⟨3, ![1, 2048, 3]⟩
abbrev S1x1024x1 : Shape := ⟨3, ![1, 1024, 1]⟩
abbrev S1x2048x1 : Shape := ⟨3, ![1, 2048, 1]⟩
abbrev S1024x4 : Shape := ⟨2, ![1024, 4]⟩
abbrev S1024x3 : Shape := ⟨2, ![1024, 3]⟩
abbrev S2048x3 : Shape := ⟨2, ![2048, 3]⟩
abbrev S1024x1 : Shape := ⟨2, ![1024, 1]⟩
abbrev S2048x1 : Shape := ⟨2, ![2048, 1]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S4x16384 : Shape := ⟨2, ![4, 16384]⟩
abbrev S4x2048 : Shape := ⟨2, ![4, 2048]⟩
abbrev S_ : Shape := ⟨0, ![]⟩
abbrev S4 : Shape := ⟨1, ![4]⟩

abbrev nBuf : Space → Nat
  | .hbm => 30
  | .vmem => 8
  | .smem => 0
  | _ => 0

abbrev bufTy : (tb : Table) → Fin (tcTables nBuf tb) → BufTy
  | .hbm, ⟨0, _⟩ => ⟨S4x16384x4, .f32⟩
  | .hbm, ⟨1, _⟩ => ⟨S4x2048x3, .f32⟩
  | .hbm, ⟨2, _⟩ => ⟨S4x16384x1, .f32⟩
  | .hbm, ⟨3, _⟩ => ⟨S4x2048x1, .f32⟩
  | .hbm, ⟨4, _⟩ => ⟨S4x16384, .f32⟩
  | .hbm, ⟨5, _⟩ => ⟨S4x2048, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1x1024x4, .f32⟩
  | .local _ .vmem, ⟨1, _⟩ => ⟨S1x1024x4, .f32⟩
  | .local _ .vmem, ⟨2, _⟩ => ⟨S1x2048x3, .f32⟩
  | .local _ .vmem, ⟨3, _⟩ => ⟨S1x2048x3, .f32⟩
  | .local _ .vmem, ⟨4, _⟩ => ⟨S1x1024x1, .f32⟩
  | .local _ .vmem, ⟨5, _⟩ => ⟨S1x1024x1, .f32⟩
  | .local _ .vmem, ⟨6, _⟩ => ⟨S1x2048x1, .f32⟩
  | .local _ .vmem, ⟨7, _⟩ => ⟨S1x2048x1, .f32⟩
  | _, _ => ⟨S4x16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v48 : BitVec 1 := Scalar.cmpi .eq arg1 c0_i32
  let v49 : BitVec 32 := Scalar.extui v48
  let c0_i32_13 : BitVec 32 := 0#32
  let v50 : BitVec 1 := Scalar.cmpi .ne v49 c0_i32_13
  v50

def k0_cond2 (i : grid0.Coords) : BitVec 1 :=
  let arg1 : BitVec 32 := BitVec.ofNat 32 (i 1).val
  let c0_i32_14 : BitVec 32 := 0#32
  let v51 : BitVec 1 := Scalar.cmpi .sgt arg1 c0_i32_14
  let v52 : BitVec 32 := Scalar.extui v51
  let c0_i32_15 : BitVec 32 := 0#32
  let v53 : BitVec 1 := Scalar.cmpi .ne v52 c0_i32_15
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  slices_S1024x4_o0_0_S1024x3 : S1024x4.Slices ![0, 0] S1024x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S2048x3_o0_0_S2048x1 : S2048x3.Slices ![0, 0] S2048x1
  shapeCasts_S2048x1_S2048 : S2048x1.ShapeCasts S2048
  shapeCasts_S2048_S1x2048 : S2048.ShapeCasts S1x2048
  slices_S2048x3_o0_1_S2048x1 : S2048x3.Slices ![0, 1] S2048x1
  slices_S2048x3_o0_2_S2048x1 : S2048x3.Slices ![0, 2] S2048x1
  broadcasts_S1024x1_S1024x2048 : S1024x1.Broadcasts S1024x2048
  broadcasts_S1x2048_S1024x2048 : S1x2048.Broadcasts S1024x2048
  reduces_S1024x3_S1024 : S1024x3.Reduces [1] S1024
  shapeCasts_S1024_S1024x1 : S1024.ShapeCasts S1024x1
  reduces_S2048x3_S2048 : S2048x3.Reduces [1] S2048
  reduces_S1024x2048_S1024 : S1024x2048.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024 : S1x1024x1.ShapeCasts S1024
  shapeCasts_S1024_S1x1024x1 : S1024.ShapeCasts S1x1024x1
  reduces_S1024x2048_S2048 : S1024x2048.Reduces [0] S2048
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048 : S1x2048x1.ShapeCasts S2048
  shapeCasts_S2048_S1x2048x1 : S2048.ShapeCasts S1x2048x1
  shapeCasts_S4x16384x1_S4x16384 : S4x16384x1.ShapeCasts S4x16384
  shapeCasts_S4x2048x1_S4x2048 : S4x2048x1.ShapeCasts S4x2048
  reducesTo_S4x16384_S4_d1 : S4x16384.ReducesTo [1] S4
  h_S_ : 0 < S_.numel
  bcast_S_S4 : S_.BroadcastsInDim S4 (![] : Fin 0 → Fin S4.rank)
  reducesTo_S4x2048_S4_d1 : S4x2048.ReducesTo [1] S4
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4.size a ≤ S4x16384x4.size a
  hwx0_0 : ∀ i : grid0.Coords, EltTy.bits .f32 = 32 ∨ (Rect.block (s := S4x16384x4) S1x1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S4x2048x3.size a
  hwx0_1 : ∀ i : grid0.Coords, EltTy.bits .f32 = 32 ∨ (Rect.block (s := S4x2048x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x16384x1.size a
  hwx0_2 : ∀ i : grid0.Coords, EltTy.bits .f32 = 32 ∨ (Rect.block (s := S4x16384x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S4x2048x1.size a
  hwx0_3 : ∀ i : grid0.Coords, EltTy.bits .f32 = 32 ∨ (Rect.block (s := S4x2048x1) S1x2048x1.size (cc0_transform_3 i) (hinb0_3 i)).WholeWords (EltTy.packing .f32)

variable [Facts₀]

abbrev win0_0 : Pipeline.Window sig grid0 :=
  Pipeline.Window.ofSpec (Memref.whole main_arg0) S1x1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4x16384x4 : Shape := ⟨3, ![4, 16384, 4]⟩
abbrev S4x2048x3 : Shape := ⟨3, ![4, 2048, 3]⟩
abbrev S4x16384x3 : Shape := ⟨3, ![4, 16384, 3]⟩
abbrev S_ : Shape := ⟨0, ![]⟩
abbrev S4x16384 : Shape := ⟨2, ![4, 16384]⟩
abbrev S4x2048 : Shape := ⟨2, ![4, 2048]⟩
abbrev S4x16384x2048 : Shape := ⟨3, ![4, 16384, 2048]⟩
abbrev S4x16384x1 : Shape := ⟨3, ![4, 16384, 1]⟩
abbrev S4x1x2048 : Shape := ⟨3, ![4, 1, 2048]⟩
abbrev S4 : Shape := ⟨1, ![4]⟩

abbrev nBuf : Space → Nat
  | .hbm => 51
  | .vmem => 0
  | .smem => 0
  | _ => 0

abbrev bufTy : (tb : Table) → Fin (tcTables nBuf tb) → BufTy
  | .hbm, ⟨0, _⟩ => ⟨S4x16384x4, .f32⟩
  | .hbm, ⟨1, _⟩ => ⟨S4x2048x3, .f32⟩
  | .hbm, ⟨2, _⟩ => ⟨S4x16384x3, .f32⟩
  | .hbm, ⟨3, _⟩ => ⟨S4x16384x3, .f32⟩
  | .hbm, ⟨4, _⟩ => ⟨S_, .f32⟩
  | .hbm, ⟨5, _⟩ => ⟨S4x16384, .f32⟩
  | .hbm, ⟨6, _⟩ => ⟨S4x2048x3, .f32⟩
  | .hbm, ⟨7, _⟩ => ⟨S_, .f32⟩
  | .hbm, ⟨8, _⟩ => ⟨S4x2048, .f32⟩
  | .hbm, ⟨9, _⟩ => ⟨S4x16384x2048, .f32⟩
  | .hbm, ⟨10, _⟩ => ⟨S4x16384x1, .f32⟩
  | .hbm, ⟨11, _⟩ => ⟨S4x1x2048, .f32⟩
  | .hbm, ⟨12, _⟩ => ⟨S4x16384x2048, .f32⟩
  | .hbm, ⟨13, _⟩ => ⟨S4x16384x2048, .f32⟩
  | .hbm, ⟨14, _⟩ => ⟨S4x16384x2048, .f32⟩
  | .hbm, ⟨15, _⟩ => ⟨S_, .f32⟩
  | .hbm, ⟨16, _⟩ => ⟨S4x16384x2048, .f32⟩
  | .hbm, ⟨17, _⟩ => ⟨S4x16384x2048, .f32⟩
  | .hbm, ⟨18, _⟩ => ⟨S4x16384x2048, .f32⟩
  | .hbm, ⟨19, _⟩ => ⟨S_, .f32⟩
  | .hbm, ⟨20, _⟩ => ⟨S4x16384x2048, .f32⟩
  | .hbm, ⟨21, _⟩ => ⟨S4x16384x2048, .f32⟩
  | .hbm, ⟨22, _⟩ => ⟨S4x16384x2048, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x16384, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S4x16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_cst_13 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  slices_S4x16384x4_S4x16384x3_0_0_0 : S4x16384x4.Slices ![0, 0, 0] S4x16384x3
  reducesTo_S4x16384x3_S4x16384_d2 : S4x16384x3.ReducesTo [2] S4x16384
  h_S_ : 0 < S_.numel
  reducesTo_S4x2048x3_S4x2048_d2 : S4x2048x3.ReducesTo [2] S4x2048
  bcast_S4x16384_S4x16384x1_0_1 : S4x16384.BroadcastsInDim S4x16384x1 (![0, 1] : Fin 2 → Fin S4x16384x1.rank)
  bcast_S4x2048_S4x1x2048_0_2 : S4x2048.BroadcastsInDim S4x1x2048 (![0, 2] : Fin 2 → Fin S4x1x2048.rank)
  bcast_S4x16384x1_S4x16384x2048_0_1_2 : S4x16384x1.BroadcastsInDim S4x16384x2048 (![0, 1, 2] : Fin 3 → Fin S4x16384x2048.rank)
  bcast_S4x1x2048_S4x16384x2048_0_1_2 : S4x1x2048.BroadcastsInDim S4x16384x2048 (![0, 1, 2] : Fin 3 → Fin S4x16384x2048.rank)
  bcast_S_S4x16384x2048 : S_.BroadcastsInDim S4x16384x2048 (![] : Fin 0 → Fin S4x16384x2048.rank)
  reducesTo_S4x16384x2048_S4x2048_d1 : S4x16384x2048.ReducesTo [1] S4x2048
  reducesTo_S4x16384x2048_S4x16384_d2 : S4x16384x2048.ReducesTo [2] S4x16384
  reducesTo_S4x2048_S4_d1 : S4x2048.ReducesTo [1] S4
  bcast_S_S4 : S_.BroadcastsInDim S4 (![] : Fin 0 → Fin S4.rank)
  reducesTo_S4x16384_S4_d1 : S4x16384.ReducesTo [1] S4
  reducesTo_S4_S_d0 : S4.ReducesTo [0] S_
  dot_S4x16384x3_S4x2048x3_S4x16384x2048_2_2_1_1_0_0_wf : DotDims.WF S4x16384x3 S4x2048x3 S4x16384x2048 [2] [2] [1] [1] [0] [0]

variable [Facts₀]

def dot_S4x16384x3_S4x2048x3_S4x16384x2048_2_2_1_1_0_0 : DotDims S4x16384x3 S4x2048x3 S4x16384x2048 where
  lhsContracting := [2]
  rhsContracting := [2]
  lhsNonContracting := [1]
  rhsNonContracting := [1]
  lhsBatch := [0]
  rhsBatch := [0]
  wf := dot_S4x16384x3_S4x2048x3_S4x16384x2048_2_2_1_1_0_0_wf

class Facts : Prop extends Facts₀ where

variable [Facts]
-- ==== Proof.KBody.lean ====
/-
  The kernel's body, the pipeline's proof data and the frame run, for any float instance.

  One grid point (batch `b`, tile `j`) loads a block of 1024 sampled points and the batch's 2048 surface points, forms
  the 1024 × 2048 distance tile, stores the tile's row minima into the row-minimum buffer, and updates the
  column-minimum buffer: at the first tile of a batch (`j = 0`) it stores the tile's column minima, at a later tile
  (`j > 0`) the minimum of what the buffer holds and the tile's column minima.  The two conditions are decided from the
  grid point in closed form (`t % 16 = 0` or not); exactly one holds at every point, so the column-minimum window is
  stored into at every point.  `sound_kernel_A` and `sound_kernel_B` are the body's triples in the two cases;
  `colAt` says what the column-minimum buffer holds after each point, by recursion on the point (the buffer is not
  written back between the tiles of a batch, so a later tile finds what the tile before left); `dats` is the proof
  data, `body_obligation` the obligation at every point, `run_main` the run and `frame` the frame claim.
-/
import proofs.«147430_j70480413328153_1_alg».proof.Proof.Gen.KernelIdeal.Frame
import proofs.«147430_j70480413328153_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## Which branch a grid point takes -/

theorem hc1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hc2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)
theorem live3 : ∀ t : Fin cfg0.N, cfg0.idle 3 (grid0.coords t) = false :=
  (by decide +kernel : ∀ t : Fin grid0.N, idle0 3 (grid0.coords t) = false)

/-! ## What one grid point computes, from its blocks -/

def rowOut (x0 : Vec F S1x1024x4 .f32) (x1 : Vec F S1x2048x3 .f32) : Vec F S1x1024x1 .f32 := k0_pay1 (k0_pay6 x0 x1)
def colA (x0 : Vec F S1x1024x4 .f32) (x1 : Vec F S1x2048x3 .f32) : Vec F S1x2048x1 .f32 := k0_pay3 (k0_pay5 x0 x1)
def colB (x0 : Vec F S1x1024x4 .f32) (x1 : Vec F S1x2048x3 .f32) (prev : Vec F S1x2048x1 .f32) : Vec F S1x2048x1 .f32 :=
  k0_pay4 (k0_pay5 x0 x1) prev

/-- The offsets of a whole-block rectangle. -/
theorem off3 : (![0, 0, 0] : Fin 3 → ℕ) = fun _ => 0 := funext fun a => by fin_cases a <;> rfl

/-- One store through the whole-block rectangle covers the row-minimum buffer. -/
theorem cover_row (w : Vec F S1x1024x1 .f32) (y : S1x1024x1.Idx) :
    ∃ pc ∈ ([⟨Rect.unit (s := S1x1024x1) ![0, 0, 0] S1x1024x1.size inb_S1x1024x1_S1x1024x1_0_0_0, w⟩] : List (View.Piece (Elt F) S1x1024x1 .f32)), y ∈ pc.1.set :=
  View.cover_of_tiled [⟨Rect.unit (s := S1x1024x1) ![0, 0, 0] S1x1024x1.size inb_S1x1024x1_S1x1024x1_0_0_0, w⟩] S1x1024x1.size (by rfl) y
/-- One store through the whole-block rectangle covers the column-minimum buffer. -/
theorem cover_col (w : Vec F S1x2048x1 .f32) (y : S1x2048x1.Idx) :
    ∃ pc ∈ ([⟨Rect.unit (s := S1x2048x1) ![0, 0, 0] S1x2048x1.size inb_S1x2048x1_S1x2048x1_0_0_0, w⟩] : List (View.Piece (Elt F) S1x2048x1 .f32)), y ∈ pc.1.set :=
  View.cover_of_tiled [⟨Rect.unit (s := S1x2048x1) ![0, 0, 0] S1x2048x1.size inb_S1x2048x1_S1x2048x1_0_0_0, w⟩] S1x2048x1.size (by rfl) y

theorem sound_kernel_A (c : Dev nD) (i : grid0.Coords)
    (arg2 : Memref sig .tc .vmem S1x1024x4 .f32) (harg2 : arg2.IsWhole) (arg3 : Memref sig .tc .vmem S1x2048x3 .f32) (harg3 : arg3.IsWhole)
    (arg4 : Memref sig .tc .vmem S1x1024x1 .f32) (harg4 : arg4.IsWhole) (arg5 : Memref sig .tc .vmem S1x2048x1 .f32) (harg5 : arg5.IsWhole)
    (h1 : k0_cond1 i = 1#1) (h2 : ¬ k0_cond2 i = 1#1)
    (x0 : Vec F S1x1024x4 .f32) (x1 : Vec F S1x2048x3 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (rowOut x0 x1) ∗ owns (c : Thread nD τ) arg5 fullShare (colA x0 x1)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_row _), View.canon_unit_zero off3]
    sl_unfold_words
    simp only [View.readAt_eq_ld, View.ld_unit_zero (S := S1x1024x4) off3, View.ld_unit_zero (S := S1x2048x3) off3]
    rfl
  iexists _; isplitr
  swap; · iexact H3
  ipureintro
  rw [View.read_writes_eq_canon _ _ _ (cover_col _), View.canon_unit_zero off3]
  sl_unfold_words
  simp only [View.readAt_eq_ld, View.ld_unit_zero (S := S1x1024x4) off3, View.ld_unit_zero (S := S1x2048x3) off3]
  rfl

theorem sound_kernel_B (c : Dev nD) (i : grid0.Coords)
    (arg2 : Memref sig .tc .vmem S1x1024x4 .f32) (harg2 : arg2.IsWhole) (arg3 : Memref sig .tc .vmem S1x2048x3 .f32) (harg3 : arg3.IsWhole)
    (arg4 : Memref sig .tc .vmem S1x1024x1 .f32) (harg4 : arg4.IsWhole) (arg5 : Memref sig .tc .vmem S1x2048x1 .f32) (harg5 : arg5.IsWhole)
    (h1 : ¬ k0_cond1 i = 1#1) (h2 : k0_cond2 i = 1#1)
    (x0 : Vec F S1x1024x4 .f32) (x1 : Vec F S1x2048x3 .f32) (prev : Vec F S1x2048x1 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare prev
        ∗ (iprop(owns (c : Thread nD τ) arg2 fullShare x0 ∗ owns (c : Thread nD τ) arg3 fullShare x1
            ∗ owns (c : Thread nD τ) arg4 fullShare (rowOut x0 x1) ∗ owns (c : Thread nD τ) arg5 fullShare (colB x0 x1 prev)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_row _), View.canon_unit_zero off3]
    sl_unfold_words
    simp only [View.readAt_eq_ld, View.ld_unit_zero (S := S1x1024x4) off3, View.ld_unit_zero (S := S1x2048x3) off3]
    rfl
  iexists _; isplitr
  swap; · iexact H3
  ipureintro
  rw [View.read_writes_eq_canon _ _ _ (cover_col _), View.canon_unit_zero off3]
  sl_unfold_words
  simp only [View.readAt_eq_ld, View.ld_unit_zero (S := S1x1024x4) off3, View.ld_unit_zero (S := S1x2048x3) off3, View.ld_unit_zero (S := S1x2048x1) off3]
  rfl

/-! ## The proof data -/

variable (m : (ℓ : Loc nD τ sig) → Buf (Elt F) ℓ) (ρ : Dev nD → PrngReg)

theorem N64 : cfg0.N = 64 := N_0

/-- What the column-minimum buffer holds after the body at position `n`: at the first tile of a batch the tile's
    column minima, at a later tile the minimum of those with what the tile before left. -/
def colAt (c : Dev nD) : (n : ℕ) → n < cfg0.N → Vec F S1x2048x1 .f32
  | 0, hn => colA (iblk m c 0 ⟨0, hn⟩) (iblk m c 1 ⟨0, hn⟩)
  | n + 1, hn =>
    if (n + 1) % 16 = 0 then colA (iblk m c 0 ⟨n + 1, hn⟩) (iblk m c 1 ⟨n + 1, hn⟩)
    else colB (iblk m c 0 ⟨n + 1, hn⟩) (iblk m c 1 ⟨n + 1, hn⟩) (colAt c n (Nat.lt_of_succ_lt hn))

theorem colAt_A (c : Dev nD) (t : Fin cfg0.N) (h0 : t.val % 16 = 0) :
    colAt m c t.val t.isLt = colA (iblk m c 0 t) (iblk m c 1 t) := by
  obtain ⟨n, hn⟩ := t
  cases n with
  | zero => exact rfl
  | succ n => exact (if_pos h0).trans rfl

theorem colAt_B (c : Dev nD) (t : Fin cfg0.N) (h0 : ¬t.val % 16 = 0) :
    colAt m c t.val t.isLt = colB (iblk m c 0 t) (iblk m c 1 t) (colAt m c (t.val - 1) (Nat.lt_of_le_of_lt (Nat.sub_le _ _) t.isLt)) := by
  obtain ⟨n, hn⟩ := t
  cases n with
  | zero => exact (by exfalso; exact absurd (Nat.zero_mod _) h0)
  | succ n => exact (if_neg h0).trans rfl

/-- The proof data of the pipeline on core `c`: the arrays as the region finds them; after the body at point `t` each
    input's buffer at its block, the row-minimum buffer at the tile's row minima, the column-minimum buffer at the
    running minimum `colAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowOut (iblk m c 0 t) (iblk m c 1 t)
    | ⟨3, _⟩ => colAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rowOut (iblk m c 0 t) (iblk m c 1 t) := by dsimp only [dats]
theorem after0_3 (c : Dev nD) (t : Fin cfg0.N) : (dats m 0 c).after 3 t = colAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The column-minimum window is stored into at every coordinate. -/
theorem live3' : ∀ i : grid0.Coords, cfg0.idle 3 i = false := by
  intro i
  show (!(k0_cond1 i == 1#1) && !(k0_cond2 i == 1#1)) = false
  unfold k0_cond1 k0_cond2
  generalize i 1 = k
  revert k; decide

/-- At a later tile of a batch the column-minimum buffer holds what the tile before left: it was not written back between. -/
theorem before0_3_B (c : Dev nD) (t : Fin cfg0.N) (h0 : ¬t.val % 16 = 0) (d) :
    (dats m 0 c).before 3 t d = colAt m c (t.val - 1) (Nat.lt_of_le_of_lt (Nat.sub_le _ _) t.isLt) := by
  have hN : t.val < 64 := lt_of_lt_of_eq t.isLt N64
  rw [Dat.before_out_kept _ 3 rfl t (by omega) (Bool.eq_false_iff.mpr fun h => by have := (flush0_3 _).mp h; dsimp only at this; omega)
    live3' (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- The body at any point: the inputs' buffers hold their blocks; the first tile of a batch overwrites the
    column-minimum buffer, a later tile finds there what the tile before left and lowers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2,
    show (dats m 0 c).leavesExact 3 t = owns (c : Thread nD τ) (st0_3 t) fullShare ((dats m 0 c).after 3 t) from by
      unfold Dat.leavesExact; rw [live3 t], after0_3]
  by_cases h0 : t.val % 16 = 0
  · rw [colAt_A m c t h0]
    iintro ⟨HΦ, Ho, ⟨%d0, H0⟩, ⟨%d1, H1⟩, ⟨%d2, H2⟩, ⟨%d3, H3⟩⟩
    iapply (sound_kernel_A c (grid0.coords t) _ _ _ _ _ _ _ _ ((hc1 t).mpr h0) (fun h => ((hc2 t).mp h) h0) (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colAt_B m c t h0]
    simp only [before0_3_B m c t h0]
    iintro ⟨HΦ, Ho, ⟨%d0, H0⟩, ⟨%d1, H1⟩, ⟨%d2, H2⟩, ⟨%d3, H3⟩⟩
    iapply (sound_kernel_B c (grid0.coords t) _ _ _ _ _ _ _ _ (fun h => h0 ((hc1 t).mp h)) ((hc2 t).mpr h0) (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KBodyBits.lean ====
/-
  The kernel's body, the pipeline's proof data and the frame run, for any float instance.

  One grid point (batch `b`, tile `j`) loads a block of 1024 sampled points and the batch's 2048 surface points, forms
  the 1024 × 2048 distance tile, stores the tile's row minima into the row-minimum buffer, and updates the
  column-minimum buffer: at the first tile of a batch (`j = 0`) it stores the tile's column minima, at a later tile
  (`j > 0`) the minimum of what the buffer holds and the tile's column minima.  The two conditions are decided from the
  grid point in closed form (`t % 16 = 0` or not); exactly one holds at every point, so the column-minimum window is
  stored into at every point.  `sound_kernel_A` and `sound_kernel_B` are the body's triples in the two cases;
  `colAt` says what the column-minimum buffer holds after each point, by recursion on the point (the buffer is not
  written back between the tiles of a batch, so a later tile finds what the tile before left); `dats` is the proof
  data, `body_obligation` the obligation at every point, `run_main` the run and `frame` the frame claim.
-/
import proofs.«147430_j70480413328153_1_alg».proof.Proof.Gen.Kernel.Frame
import proofs.«147430_j70480413328153_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## Which branch a grid point takes -/

theorem hc1 : ∀ t : Fin cfg0.N, k0_cond1 (grid0.coords t) = 1#1 ↔ t.val % 16 = 0 :=
  (by decide +kernel : ∀ t : Fin grid0.N, k0_cond1 (grid0.coords t) = 1#1 ↔ t.val % 16 = 0)
theorem hc2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)
theorem live3 : ∀ t : Fin cfg0.N, cfg0.idle 3 (grid0.coords t) = false :=
  (by decide +kernel : ∀ t : Fin grid0.N, idle0 3 (grid0.coords t) = false)

/-! ## What one grid point computes, from its blocks -/

def rowOut (x0 : Vec F S1x1024x4 .f32) (x1 : Vec F S1x2048x3 .f32) : Vec F S1x1024x1 .f32 := k0_pay1 (k0_pay6 x0 x1)
def colA (x0 : Vec F S1x1024x4 .f32) (x1 : Vec F S1x2048x3 .f32) : Vec F S1x2048x1 .f32 := k0_pay3 (k0_pay5 x0 x1)
def colB (x0 : Vec F S1x1024x4 .f32) (x1 : Vec F S1x2048x3 .f32) (prev : Vec F S1x2048x1 .f32) : Vec F S1x2048x1 .f32 :=
  k0_pay4 (k0_pay5 x0 x1) prev

/-- The offsets of a whole-block rectangle. -/
theorem off3 : (![0, 0, 0] : Fin 3 → ℕ) = fun _ => 0 := funext fun a => by fin_cases a <;> rfl

/-- One store through the whole-block rectangle covers the row-minimum buffer. -/
theorem cover_row (w : Vec F S1x1024x1 .f32) (y : S1x1024x1.Idx) :
    ∃ pc ∈ ([⟨Rect.unit (s := S1x1024x1) ![0, 0, 0] S1x1024x1.size inb_S1x1024x1_S1x1024x1_0_0_0, w⟩] : List (View.Piece (Elt F) S1x1024x1 .f32)), y ∈ pc.1.set :=
  View.cover_of_tiled [⟨Rect.unit (s := S1x1024x1) ![0, 0, 0] S1x1024x1.size inb_S1x1024x1_S1x1024x1_0_0_0, w⟩] S1x1024x1.size (by rfl) y
/-- One store through the whole-block rectangle covers the column-minimum buffer. -/
theorem cover_col (w : Vec F S1x2048x1 .f32) (y : S1x2048x1.Idx) :
    ∃ pc ∈ ([⟨Rect.unit (s := S1x2048x1) ![0, 0, 0] S1x2048x1.size inb_S1x2048x1_S1x2048x1_0_0_0, w⟩] : List (View.Piece (Elt F) S1x2048x1 .f32)), y ∈ pc.1.set :=
  View.cover_of_tiled [⟨Rect.unit (s := S1x2048x1) ![0, 0, 0] S1x2048x1.size inb_S1x2048x1_S1x2048x1_0_0_0, w⟩] S1x2048x1.size (by rfl) y

theorem sound_kernel_A (c : Dev nD) (i : grid0.Coords)
    (arg2 : Memref sig .tc .vmem S1x1024x4 .f32) (harg2 : arg2.IsWhole) (arg3 : Memref sig .tc .vmem S1x2048x3 .f32) (harg3 : arg3.IsWhole)
    (arg4 : Memref sig .tc .vmem S1x1024x1 .f32) (harg4 : arg4.IsWhole) (arg5 : Memref sig .tc .vmem S1x2048x1 .f32) (harg5 : arg5.IsWhole)
    (h1 : k0_cond1 i = 1#1) (h2 : ¬ k0_cond2 i = 1#1)
    (x0 : Vec F S1x1024x4 .f32) (x1 : Vec F S1x2048x3 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (rowOut x0 x1) ∗ owns (c : Thread nD τ) arg5 fullShare (colA x0 x1)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_row _), View.canon_unit_zero off3]
    sl_unfold_words
    simp only [View.readAt_eq_ld, View.ld_unit_zero (S := S1x1024x4) off3, View.ld_unit_zero (S := S1x2048x3) off3]
    rfl
  iexists _; isplitr
  swap; · iexact H3
  ipureintro
  rw [View.read_writes_eq_canon _ _ _ (cover_col _), View.canon_unit_zero off3]
  sl_unfold_words
  simp only [View.readAt_eq_ld, View.ld_unit_zero (S := S1x1024x4) off3, View.ld_unit_zero (S := S1x2048x3) off3]
  rfl

theorem sound_kernel_B (c : Dev nD) (i : grid0.Coords)
    (arg2 : Memref sig .tc .vmem S1x1024x4 .f32) (harg2 : arg2.IsWhole) (arg3 : Memref sig .tc .vmem S1x2048x3 .f32) (harg3 : arg3.IsWhole)
    (arg4 : Memref sig .tc .vmem S1x1024x1 .f32) (harg4 : arg4.IsWhole) (arg5 : Memref sig .tc .vmem S1x2048x1 .f32) (harg5 : arg5.IsWhole)
    (h1 : ¬ k0_cond1 i = 1#1) (h2 : k0_cond2 i = 1#1)
    (x0 : Vec F S1x1024x4 .f32) (x1 : Vec F S1x2048x3 .f32) (prev : Vec F S1x2048x1 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare prev
        ∗ (iprop(owns (c : Thread nD τ) arg2 fullShare x0 ∗ owns (c : Thread nD τ) arg3 fullShare x1
            ∗ owns (c : Thread nD τ) arg4 fullShare (rowOut x0 x1) ∗ owns (c : Thread nD τ) arg5 fullShare (colB x0 x1 prev)) -∗ K ⟨⟩))
      ⊢ wp frame (wpE (defs₀ (F := F)) Variants.none c none) Set.univ (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (cover_row _), View.canon_unit_zero off3]
    sl_unfold_words
    simp only [View.readAt_eq_ld, View.ld_unit_zero (S := S1x1024x4) off3, View.ld_unit_zero (S := S1x2048x3) off3]
    rfl
  iexists _; isplitr
  swap; · iexact H3
  ipureintro
  rw [View.read_writes_eq_canon _ _ _ (cover_col _), View.canon_unit_zero off3]
  sl_unfold_words
  simp only [View.readAt_eq_ld, View.ld_unit_zero (S := S1x1024x4) off3, View.ld_unit_zero (S := S1x2048x3) off3, View.ld_unit_zero (S := S1x2048x1) off3]
  rfl

/-! ## The proof data -/

variable (m : (ℓ : Loc nD τ sig) → Buf (Elt F) ℓ) (ρ : Dev nD → PrngReg)

theorem N64 : cfg0.N = 64 := N_0

/-- What the column-minimum buffer holds after the body at position `n`: at the first tile of a batch the tile's
    column minima, at a later tile the minimum of those with what the tile before left. -/
def colAt (c : Dev nD) : (n : ℕ) → n < cfg0.N → Vec F S1x2048x1 .f32
  | 0, hn => colA (iblk m c 0 ⟨0, hn⟩) (iblk m c 1 ⟨0, hn⟩)
  | n + 1, hn =>
    if (n + 1) % 16 = 0 then colA (iblk m c 0 ⟨n + 1, hn⟩) (iblk m c 1 ⟨n + 1, hn⟩)
    else colB (iblk m c 0 ⟨n + 1, hn⟩) (iblk m c 1 ⟨n + 1, hn⟩) (colAt c n (Nat.lt_of_succ_lt hn))

theorem colAt_A (c : Dev nD) (t : Fin cfg0.N) (h0 : t.val % 16 = 0) :
    colAt m c t.val t.isLt = colA (iblk m c 0 t) (iblk m c 1 t) := by
  obtain ⟨n, hn⟩ := t
  cases n with
  | zero => exact rfl
  | succ n => exact (if_pos h0).trans rfl

theorem colAt_B (c : Dev nD) (t : Fin cfg0.N) (h0 : ¬t.val % 16 = 0) :
    colAt m c t.val t.isLt = colB (iblk m c 0 t) (iblk m c 1 t) (colAt m c (t.val - 1) (Nat.lt_of_le_of_lt (Nat.sub_le _ _) t.isLt)) := by
  obtain ⟨n, hn⟩ := t
  cases n with
  | zero => exact (by exfalso; exact absurd (Nat.zero_mod _) h0)
  | succ n => exact (if_neg h0).trans rfl

/-- The proof data of the pipeline on core `c`: the arrays as the region finds them; after the body at point `t` each
    input's buffer at its block, the row-minimum buffer at the tile's row minima, the column-minimum buffer at the
    running minimum `colAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowOut (iblk m c 0 t) (iblk m c 1 t)
    | ⟨3, _⟩ => colAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rowOut (iblk m c 0 t) (iblk m c 1 t) := by dsimp only [dats]
theorem after0_3 (c : Dev nD) (t : Fin cfg0.N) : (dats m 0 c).after 3 t = colAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The column-minimum window is stored into at every coordinate. -/
theorem live3' : ∀ i : grid0.Coords, cfg0.idle 3 i = false := by
  intro i
  show (!(k0_cond1 i == 1#1) && !(k0_cond2 i == 1#1)) = false
  unfold k0_cond1 k0_cond2
  generalize i 1 = k
  revert k; decide

/-- At a later tile of a batch the column-minimum buffer holds what the tile before left: it was not written back between. -/
theorem before0_3_B (c : Dev nD) (t : Fin cfg0.N) (h0 : ¬t.val % 16 = 0) (d) :
    (dats m 0 c).before 3 t d = colAt m c (t.val - 1) (Nat.lt_of_le_of_lt (Nat.sub_le _ _) t.isLt) := by
  have hN : t.val < 64 := lt_of_lt_of_eq t.isLt N64
  rw [Dat.before_out_kept _ 3 rfl t (by omega) (Bool.eq_false_iff.mpr fun h => by have := (flush0_3 _).mp h; dsimp only at this; omega)
    live3' (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- The body at any point: the inputs' buffers hold their blocks; the first tile of a batch overwrites the
    column-minimum buffer, a later tile finds there what the tile before left and lowers it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2,
    show (dats m 0 c).leavesExact 3 t = owns (c : Thread nD τ) (st0_3 t) fullShare ((dats m 0 c).after 3 t) from by
      unfold Dat.leavesExact; rw [live3 t], after0_3]
  by_cases h0 : t.val % 16 = 0
  · rw [colAt_A m c t h0]
    iintro ⟨HΦ, Ho, ⟨%d0, H0⟩, ⟨%d1, H1⟩, ⟨%d2, H2⟩, ⟨%d3, H3⟩⟩
    iapply (sound_kernel_A c (grid0.coords t) _ _ _ _ _ _ _ _ ((hc1 t).mpr h0) (fun h => ((hc2 t).mp h) h0) (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colAt_B m c t h0]
    simp only [before0_3_B m c t h0]
    iintro ⟨HΦ, Ho, ⟨%d0, H0⟩, ⟨%d1, H1⟩, ⟨%d2, H2⟩, ⟨%d3, H3⟩⟩
    iapply (sound_kernel_B c (grid0.coords t) _ _ _ _ _ _ _ _ (fun h => h0 ((hc1 t).mp h)) ((hc2 t).mpr h0) (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Spec.lean ====
/-
  The mathematics both programs compute, stated once over the extended reals.

  For a batch `b`, a sampled point `n` (its first three channels) and a surface point `q`, the distance is
  `dist3 x y = sqrt (max ((∑ x² + ∑ y²) - 2 · ∑ x·y) 0)`; the row minimum takes the least distance over the surface
  points, the column minimum over the sampled points, both folded from +∞; the scalar result is a fixed chain of host
  operations of the two minimum tables (`tail`).  The kernel computes the same quantities tile by tile: over a tile
  of 1024 sampled points (`b…` forms, on blocks), the column minimum being the running minimum of the tiles' column
  minima, which has the same lower bounds as the minimum over all the sampled points.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The literal +∞ both programs fold their minima from. -/
def pinf : EReal := Ideal.ofBits .f32 0x7F800000#32

/-- Channel `k` of three among the four channels of a sampled point. -/
def lift3 (k : Fin 3) : Fin 4 := ⟨k.val, by omega⟩

/-- The distance of two points given by their three coordinates. -/
def dist3 (x y : Fin 3 → EReal) : EReal :=
  Ideal.sqrt (max (((∑ k, x k * x k) + (∑ k, y k * y k)) - Ideal.ofBits .f32 0x40000000#32 * (∑ k, x k * y k))
    (Ideal.ofBits .f32 0x00000000#32))

/-! ## Over the whole arrays -/

/-- The three coordinates of sampled point `n` of batch `b`. -/
def xrow (X : (⟨3, ![4, 16384, 4]⟩ : Shape).Idx → EReal) (b : Fin 4) (n : Fin 16384) : Fin 3 → EReal :=
  fun k => X (ix3 b n (lift3 k))
/-- The three coordinates of surface point `q` of batch `b`. -/
def yrow (Y : (⟨3, ![4, 2048, 3]⟩ : Shape).Idx → EReal) (b : Fin 4) (q : Fin 2048) : Fin 3 → EReal :=
  fun k => Y (ix3 b q k)

def dist (X : (⟨3, ![4, 16384, 4]⟩ : Shape).Idx → EReal) (Y : (⟨3, ![4, 2048, 3]⟩ : Shape).Idx → EReal)
    (b : Fin 4) (n : Fin 16384) (q : Fin 2048) : EReal := dist3 (xrow X b n) (yrow Y b q)

/-- The least distance from sampled point `n` to the surface points. -/
def rowMin (X : (⟨3, ![4, 16384, 4]⟩ : Shape).Idx → EReal) (Y : (⟨3, ![4, 2048, 3]⟩ : Shape).Idx → EReal)
    (b : Fin 4) (n : Fin 16384) : EReal := (Finset.univ : Finset (Fin 2048)).fold min pinf (fun q => dist X Y b n q)

/-- The least distance from surface point `q` to the sampled points. -/
def colMin (X : (⟨3, ![4, 16384, 4]⟩ : Shape).Idx → EReal) (Y : (⟨3, ![4, 2048, 3]⟩ : Shape).Idx → EReal)
    (b : Fin 4) (q : Fin 2048) : EReal := (Finset.univ : Finset (Fin 16384)).fold min pinf (fun n => dist X Y b n q)

/-! ## Over one tile of 1024 sampled points and one batch's surface points (blocks) -/

def bxrow (x : (⟨3, ![1, 1024, 4]⟩ : Shape).Idx → EReal) (r : Fin 1024) : Fin 3 → EReal :=
  fun k => x (ix3 0 r (lift3 k))
def byrow (y : (⟨3, ![1, 2048, 3]⟩ : Shape).Idx → EReal) (q : Fin 2048) : Fin 3 → EReal :=
  fun k => y (ix3 0 q k)

def bdist (x : (⟨3, ![1, 1024, 4]⟩ : Shape).Idx → EReal) (y : (⟨3, ![1, 2048, 3]⟩ : Shape).Idx → EReal)
    (r : Fin 1024) (q : Fin 2048) : EReal := dist3 (bxrow x r) (byrow y q)

def bRowMin (x : (⟨3, ![1, 1024, 4]⟩ : Shape).Idx → EReal) (y : (⟨3, ![1, 2048, 3]⟩ : Shape).Idx → EReal)
    (r : Fin 1024) : EReal := (Finset.univ : Finset (Fin 2048)).fold min pinf (fun q => bdist x y r q)

def bColMin (x : (⟨3, ![1, 1024, 4]⟩ : Shape).Idx → EReal) (y : (⟨3, ![1, 2048, 3]⟩ : Shape).Idx → EReal)
    (q : Fin 2048) : EReal := (Finset.univ : Finset (Fin 1024)).fold min pinf (fun r => bdist x y r q)

/-! ## The scalar result from the two tables -/

/-- The host operations both programs end with: `mean_b (5 · mean_q C + 1 · mean_n R + max_n R)`. -/
def tail (R : FVec Ideal ⟨2, ![4, 16384]⟩ .f32) (C : FVec Ideal ⟨2, ![4, 2048]⟩ .f32) : FVec Ideal ⟨0, ![]⟩ .f32 :=
  Host.divf (F := Ideal)
    (Host.reduceAdd (F := Ideal) (axes := [0]) (t := ⟨0, ![]⟩)
      (addf
        (addf
          (mulf (broadcastInDim ⟨1, ![4]⟩ ![] (by decide) (constant (F := Ideal) ⟨0, ![]⟩ .f32 0x40A00000#32))
            (Host.divf (F := Ideal) (Host.reduceAdd (F := Ideal) (axes := [1]) (t := ⟨1, ![4]⟩) C (constant (F := Ideal) ⟨0, ![]⟩ .f32 0x00000000#32) (by decide) (by decide))
              (broadcastInDim ⟨1, ![4]⟩ ![] (by decide) (constant (F := Ideal) ⟨0, ![]⟩ .f32 0x45000000#32))))
          (mulf (broadcastInDim ⟨1, ![4]⟩ ![] (by decide) (constant (F := Ideal) ⟨0, ![]⟩ .f32 0x3F800000#32))
            (Host.divf (F := Ideal) (Host.reduceAdd (F := Ideal) (axes := [1]) (t := ⟨1, ![4]⟩) R (constant (F := Ideal) ⟨0, ![]⟩ .f32 0x00000000#32) (by decide) (by decide))
              (broadcastInDim ⟨1, ![4]⟩ ![] (by decide) (constant (F := Ideal) ⟨0, ![]⟩ .f32 0x46800000#32)))))
        (Host.reduce (axes := [1]) (t := ⟨1, ![4]⟩) (FloatOps.maximumf (F := Ideal) (φ := .f32)) R (constant (F := Ideal) ⟨0, ![]⟩ .f32 0xFF800000#32) (by decide) (by decide)))
      (constant (F := Ideal) ⟨0, ![]⟩ .f32 0x00000000#32) (by decide) (by decide))
    (constant (F := Ideal) ⟨0, ![]⟩ .f32 0x40800000#32)

end Cert.Chamfer

end
-- ==== Proof.KPay.lean ====
/-
  The kernel body's pure arithmetic, read at an index, at the ideal values.

  The distance tile `k0_pay5` of a block of 1024 sampled points and a block of 2048 surface points is, at `(r, q)`,
  the distance `dist3` of the sampled point's three coordinates and the surface point's: the two sums of squares are
  row sums laid as a column and as a row and broadcast, the inner product is the sum of the three products of a
  broadcast column and a broadcast row, and `(a + b) + c` is `∑ k : Fin 3`. Its row minimum `k0_pay6` and column
  minimum `k0_pay2` are folds of `min` from +∞ over the reduced axis's coordinates; `k0_pay1`, `k0_pay3`, `k0_pay4`
  are these under shape casts that only add or drop unit axes, and one pointwise minimum.

  First the layout operations the body uses that move a vector between `[a]`, `[a, 1]`, `[1, a]`, `[1, a, 1]` and
  `[a, b]`, each read at an index given by coordinates; then a reduction of a matrix along one axis; then the payloads.
-/
import proofs.«147430_j70480413328153_1_alg».proof.Proof.Gen.KernelIdeal.Skeleton
import proofs.«147430_j70480413328153_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Mathlib.Algebra.BigOperators.Fin

noncomputable section

namespace Cert.KernelIdeal.Pay

open Cert.KernelIdeal Cert.KernelIdeal.Gen Cert.Chamfer
open Idealize.ShloMosaic Idealize.ShloMosaic.ValueIdx

/-! ## Layout operations read at an index given by coordinates: the column forms -/

section Layout
variable {α : Type}

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, a, 1]` reads, at `(u, i, w)`, the operand at `i`. -/
theorem shapeCast_a_1a1_apply {a : ℕ} (x : (⟨1, ![a]⟩ : Shape).Idx → α)
    (h : (⟨1, ![a]⟩ : Shape).ShapeCasts ⟨3, ![1, a, 1]⟩) (u : Fin 1) (i : Fin a) (w : Fin 1) :
    shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- A `[1, a, 1]` array cast to `[a]` reads, at `i`, the operand at `(0, i, 0)`. -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    rw [Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of an `[a, n]` array, cut out as `[a, 1]` and broadcast to `[a, b]`, reads, at `(p, c)`, the
    array at `(p, o)`. -/
theorem column_broadcast_apply {a n b : ℕ} (o : ℕ) (X : (⟨2, ![a, n]⟩ : Shape).Idx → α)
    (hs : (⟨2, ![a, n]⟩ : Shape).Slices ![0, o] ⟨2, ![a, 1]⟩)
    (hb : (⟨2, ![a, 1]⟩ : Shape).Broadcasts ⟨2, ![a, b]⟩) (p : Fin a) (c : Fin b) (k : Fin n) (hk : k.val = o) :
    broadcastTo ⟨2, ![a, b]⟩ (extractStridedSlice ⟨2, ![a, 1]⟩ ![0, o] X hs) hb (ix2 p c) = X (ix2 p k) :=
  (broadcastTo_a1_ab_apply _ hb p c).trans (slice2_axis1_apply o X hs p (0 : Fin 1) k hk)

/-- Column `o` of a `[b, n]` array, cut out as `[b, 1]`, laid as the row `[1, b]` and broadcast to `[a, b]`, reads,
    at `(p, c)`, the array at `(c, o)`. -/
theorem row_broadcast_apply {b n a : ℕ} (o : ℕ) (Y : (⟨2, ![b, n]⟩ : Shape).Idx → α)
    (hs : (⟨2, ![b, n]⟩ : Shape).Slices ![0, o] ⟨2, ![b, 1]⟩)
    (h1 : (⟨2, ![b, 1]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (p : Fin a) (c : Fin b) (k : Fin n) (hk : k.val = o) :
    broadcastTo ⟨2, ![a, b]⟩
        (shapeCast ⟨2, ![1, b]⟩ (shapeCast ⟨1, ![b]⟩ (extractStridedSlice ⟨2, ![b, 1]⟩ ![0, o] Y hs) h1) h2) hb (ix2 p c)
      = Y (ix2 c k) :=
  (broadcastTo_1b_ab_apply _ hb p c).trans
    ((shapeCast_a_1a_apply _ h2 (0 : Fin 1) c).trans
      ((shapeCast_a1_a_apply _ h1 c).trans (slice2_axis1_apply o Y hs c (0 : Fin 1) k hk)))

end Layout

/-! ## A reduction of a matrix along one axis, read at an index -/

section Reduce

/-- Over a matrix's columns the source index above `r` with coordinate `k` inserted is `(r, k)`. -/
theorem lift_axis1 {a n : ℕ} (h : (⟨2, ![a, n]⟩ : Shape).Reduces [1] ⟨1, ![a]⟩) (r : Fin a) (k : Fin n) :
    h.lift (ix1 r) k = ix2 r k := by
  funext c
  refine Fin.ext ?_
  match c with
  | ⟨0, _⟩ => rfl
  | ⟨1, _⟩ => rfl

/-- Over a matrix's rows the source index above `q` with coordinate `k` inserted is `(k, q)`. -/
theorem lift_axis0 {n b : ℕ} (h : (⟨2, ![n, b]⟩ : Shape).Reduces [0] ⟨1, ![b]⟩) (q : Fin b) (k : Fin n) :
    h.lift (ix1 q) k = ix2 k q := by
  funext c
  refine Fin.ext ?_
  match c with
  | ⟨0, _⟩ => rfl
  | ⟨1, _⟩ => rfl

/-- A float minimum reduction over one axis, read at the ideal values: the fold of `min` from the accumulator's value
    over that axis's coordinates. -/
theorem multiReduction_minimumf_single {s t : Shape} {φ : FTy} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A row's sum: the sum reduction of an `[a, n]` matrix along its columns reads, at `r`, `∑ k, X (r, k)`. -/
theorem reduce_add_axis1_apply {a n : ℕ} {φ : FTy} (X : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin n, X (ix2 r k) :=
  (Ideal.multiReduction_add_single X acc h hφ hacc (ix1 r)).trans
    (Finset.sum_congr rfl fun k _ => congrArg X (lift_axis1 h r k))

/-- A row's minimum: the minimum reduction of an `[a, n]` matrix along its columns reads, at `r`, the fold of `min`
    over `k` of `X (r, k)`. -/
theorem reduce_min_axis1_apply {a n : ℕ} {φ : FTy} (X : FVec Ideal ⟨2, ![a, n]⟩ φ) (acc : BitVec φ.bits)
    (h : (⟨2, ![a, n]⟩ : Shape).Reduces [1] ⟨1, ![a]⟩) (hφ : FKind.Formats φ) (hacc : acc = FKind.minimumf.neutral φ hφ)
    (r : Fin a) :
    multiReduction .minimumf [1] ⟨1, ![a]⟩ X acc h hφ hacc (ix1 r)
      = (Finset.univ : Finset (Fin n)).fold min (Ideal.ofBits φ acc) (fun k => X (ix2 r k)) :=
  (multiReduction_minimumf_single X acc h hφ hacc (ix1 r)).trans
    (Finset.fold_congr fun k _ => congrArg X (lift_axis1 h r k))

/-- A column's minimum: the minimum reduction of an `[n, b]` matrix along its rows reads, at `q`, the fold of `min`
    over `k` of `X (k, q)`. -/
theorem reduce_min_axis0_apply {n b : ℕ} {φ : FTy} (X : FVec Ideal ⟨2, ![n, b]⟩ φ) (acc : BitVec φ.bits)
    (h : (⟨2, ![n, b]⟩ : Shape).Reduces [0] ⟨1, ![b]⟩) (hφ : FKind.Formats φ) (hacc : acc = FKind.minimumf.neutral φ hφ)
    (q : Fin b) :
    multiReduction .minimumf [0] ⟨1, ![b]⟩ X acc h hφ hacc (ix1 q)
      = (Finset.univ : Finset (Fin n)).fold min (Ideal.ofBits φ acc) (fun k => X (ix2 k q)) :=
  (multiReduction_minimumf_single X acc h hφ hacc (ix1 q)).trans
    (Finset.fold_congr fun k _ => congrArg X (lift_axis0 h q k))

end Reduce

/-! ## The kernel's three building blocks, read at an index -/

section Blocks

/-- A row's sum laid as a column and broadcast over the columns reads, at `(p, c)`, `∑ k, X (p, k)`. -/
theorem rowsum_column_broadcast_apply {a n b : ℕ} {φ : FTy} (X : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ X acc h hφ hacc) h1) hb (ix2 p c)
      = ∑ k : Fin n, X (ix2 p k) :=
  (broadcastTo_a1_ab_apply _ hb p c).trans
    ((shapeCast_a_a1_apply _ h1 p (0 : Fin 1)).trans (reduce_add_axis1_apply X acc h hφ hacc p))

/-- A row's sum laid as a row and broadcast over the rows reads, at `(p, c)`, `∑ k, Y (c, k)`. -/
theorem rowsum_row_broadcast_apply {b n a : ℕ} {φ : FTy} (Y : FVec Ideal ⟨2, ![b, n]⟩ φ) (acc : BitVec φ.bits)
    (h : (⟨2, ![b, n]⟩ : Shape).Reduces [1] ⟨1, ![b]⟩) (hφ : FKind.Formats φ) (hacc : acc = FKind.add.neutral φ hφ)
    (h2 : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ (multiReduction .add [1] ⟨1, ![b]⟩ Y acc h hφ hacc) h2) hb (ix2 p c)
      = ∑ k : Fin n, Y (ix2 c k) :=
  (broadcastTo_1b_ab_apply _ hb p c).trans
    ((shapeCast_a_1a_apply _ h2 (0 : Fin 1) c).trans (reduce_add_axis1_apply Y acc h hφ hacc c))

end Blocks

/-! ## The payloads -/

theorem pay5_apply (x0 : Vec Ideal S1x1024x4 .f32) (x1 : Vec Ideal S1x2048x3 .f32) (r : Fin 1024) (q : Fin 2048) :
    k0_pay5 (F := Ideal) x0 x1 (ix2 r q) = bdist x0 x1 r q := by
  have hX : ∀ k : Fin 3,
      extractStridedSlice S1024x3 ![0, 0] (shapeCast S1024x4 x0 shapeCasts_S1x1024x4_S1024x4) slices_S1024x4_o0_0_S1024x3
        (ix2 r k) = bxrow x0 r k := fun k =>
    (slice2_axis1_apply 0 _ slices_S1024x4_o0_0_S1024x3 r k (lift3 k) (Nat.zero_add _).symm).trans
      (shapeCast_1ab_ab_apply x0 shapeCasts_S1x1024x4_S1024x4 r (lift3 k))
  have hY : ∀ k : Fin 3, shapeCast S2048x3 x1 shapeCasts_S1x2048x3_S2048x3 (ix2 q k) = byrow x1 q k := fun k =>
    shapeCast_1ab_ab_apply x1 shapeCasts_S1x2048x3_S2048x3 q k
  unfold k0_pay5 bdist dist3
  simp only [Idealize.ShloMosaic.sqrt, mulf_apply, addf_apply, subf_apply, maximumf_apply, broadcast_apply]
  generalize extractStridedSlice S1024x3 ![0, 0] (shapeCast S1024x4 x0 shapeCasts_S1x1024x4_S1024x4)
    slices_S1024x4_o0_0_S1024x3 = X at hX ⊢
  generalize shapeCast S2048x3 x1 shapeCasts_S1x2048x3_S2048x3 = Y at hY ⊢
  rw [rowsum_column_broadcast_apply (mulf X X) 0x00000000#32 reduces_S1024x3_S1024 (.inl rfl) rfl
      shapeCasts_S1024_S1024x1 broadcasts_S1024x1_S1024x2048 r q,
    rowsum_row_broadcast_apply (mulf Y Y) 0x00000000#32 reduces_S2048x3_S2048 (.inl rfl) rfl
      shapeCasts_S2048_S1x2048 broadcasts_S1x2048_S1024x2048 r q,
    column_broadcast_apply 0 X slices_S1024x3_o0_0_S1024x1 broadcasts_S1024x1_S1024x2048 r q (0 : Fin 3) rfl,
    column_broadcast_apply 1 X slices_S1024x3_o0_1_S1024x1 broadcasts_S1024x1_S1024x2048 r q (1 : Fin 3) rfl,
    column_broadcast_apply 2 X slices_S1024x3_o0_2_S1024x1 broadcasts_S1024x1_S1024x2048 r q (2 : Fin 3) rfl,
    row_broadcast_apply 0 Y slices_S2048x3_o0_0_S2048x1 shapeCasts_S2048x1_S2048 shapeCasts_S2048_S1x2048
      broadcasts_S1x2048_S1024x2048 r q (0 : Fin 3) rfl,
    row_broadcast_apply 1 Y slices_S2048x3_o0_1_S2048x1 shapeCasts_S2048x1_S2048 shapeCasts_S2048_S1x2048
      broadcasts_S1x2048_S1024x2048 r q (1 : Fin 3) rfl,
    row_broadcast_apply 2 Y slices_S2048x3_o0_2_S2048x1 shapeCasts_S2048x1_S2048 shapeCasts_S2048_S1x2048
      broadcasts_S1x2048_S1024x2048 r q (2 : Fin 3) rfl]
  simp only [mulf_apply, hX, hY]
  rw [Fin.sum_univ_three (fun k => bxrow x0 r k * byrow x1 q k)]
  rfl

theorem pay6_apply (x0 : Vec Ideal S1x1024x4 .f32) (x1 : Vec Ideal S1x2048x3 .f32) (r : Fin 1024) :
    k0_pay6 (F := Ideal) x0 x1 (ix1 r) = bRowMin x0 x1 r := by
  unfold k0_pay6 bRowMin
  refine (reduce_min_axis1_apply (k0_pay5 (F := Ideal) x0 x1) 0x7F800000#32 reduces_S1024x2048_S1024 (.inl rfl) rfl
    r).trans ?_
  exact Finset.fold_congr fun q _ => pay5_apply x0 x1 r q

theorem pay1_apply (v : FVec Ideal S1024 .f32) (r : Fin 1024) :
    k0_pay1 (F := Ideal) v (ix3 (0 : Fin 1) r (0 : Fin 1)) = v (ix1 r) := by
  unfold k0_pay1
  exact shapeCast_a_1a1_apply v shapeCasts_S1024_S1x1024x1 0 r 0

theorem pay2_apply (v42 : FVec Ideal S1024x2048 .f32) (q : Fin 2048) :
    k0_pay2 (F := Ideal) v42 (ix1 q) = (Finset.univ : Finset (Fin 1024)).fold min pinf (fun r => v42 (ix2 r q)) := by
  unfold k0_pay2
  exact reduce_min_axis0_apply v42 0x7F800000#32 reduces_S1024x2048_S2048 (.inl rfl) rfl q

theorem pay3_apply (v42 : FVec Ideal S1024x2048 .f32) (q : Fin 2048) :
    k0_pay3 (F := Ideal) v42 (ix3 (0 : Fin 1) q (0 : Fin 1)) = k0_pay2 (F := Ideal) v42 (ix1 q) := by
  unfold k0_pay3
  exact shapeCast_a_1a1_apply (k0_pay2 (F := Ideal) v42) shapeCasts_S2048_S1x2048x1 0 q 0

theorem pay4_apply (v42 : FVec Ideal S1024x2048 .f32) (v54 : Vec Ideal S1x2048x1 .f32) (q : Fin 2048) :
    k0_pay4 (F := Ideal) v42 v54 (ix3 (0 : Fin 1) q (0 : Fin 1)) = min (v54 (ix3 (0 : Fin 1) q (0 : Fin 1))) (k0_pay2 (F := Ideal) v42 (ix1 q)) := by
  unfold k0_pay4
  refine (shapeCast_a_1a1_apply _ shapeCasts_S2048_S1x2048x1 0 q 0).trans ?_
  refine (minimumf_apply _ _ _).trans ?_
  exact congrArg (fun z => min z (k0_pay2 (F := Ideal) v42 (ix1 q))) (shapeCast_1a1_a_apply v54 shapeCasts_S1x2048x1_S2048 q)

end Cert.KernelIdeal.Pay

end
-- ==== Proof.KBlocks.lean ====
/-
  What a grid point leaves in the two output buffers, at the ideal values, in terms of the argument arrays.

  Point `t` works on batch `t / 16` and on the sampled points `1024·(t % 16) + r`, `r < 1024`: its input blocks are
  those rows of the sampled points and all the batch's surface points, so the tile's distances, row minima and column
  minima are the arrays' `dist`, `rowMin` and a minimum over the tile's sampled points.  The column-minimum buffer
  after tile `j` of a batch has exactly the lower bounds of +∞ and of the distances from the sampled points below
  `1024·(j + 1)` (induction on `j`: the first tile stores its column minima, a later one takes the minimum with what
  the tile before left); after the sixteenth tile those are the lower bounds of `colMin`.
-/
import proofs.«147430_j70480413328153_1_alg».proof.Proof.KBody
import proofs.«147430_j70480413328153_1_alg».proof.Proof.KPay
import proofs.«147430_j70480413328153_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Body Cert.KernelIdeal.Pay Cert.Chamfer
open Idealize.ShloMosaic Idealize.ShloMosaic.TcCoe Idealize.ShloMosaic.ValueIdx Idealize.SL.Sem

variable (m : (ℓ : Loc nD τ sig) → Buf (Elt Ideal) ℓ)

/-- The sampled points as the region finds them. -/
abbrev X (c : Dev nD) : S4x16384x4.Idx → EReal := m ((c : Thread nD τ).loc main_arg0)
/-- The surface points as the region finds them. -/
abbrev Y (c : Dev nD) : S4x2048x3.Idx → EReal := m ((c : Thread nD τ).loc main_arg1)

theorem N64 : cfg0.N = 64 := N_0

/-- The batch a grid point works on. -/
def bOf (t : Fin cfg0.N) : Fin 4 := ⟨t.val / 16, by have := lt_of_lt_of_eq t.isLt N64; omega⟩
/-- Row `r` of the tile a grid point works on, as a sampled point of the batch. -/
def nOf (t : Fin cfg0.N) (r : Fin 1024) : Fin 16384 := ⟨1024 * (t.val % 16) + r.val, by have := r.isLt; omega⟩

/-! ## The index maps, and a block's element in its array -/

/-- The two input windows' index maps over the 64 grid points: the sampled points' block moves with the batch and the
    tile, the surface points' block with the batch only. -/
theorem idx_facts : ∀ t : Fin cfg0.N, win0_0.index t (0 : Fin 3) = t.val / 16 ∧ win0_0.index t (1 : Fin 3) = t.val % 16
    ∧ win0_0.index t (2 : Fin 3) = 0 ∧ win0_1.index t (0 : Fin 3) = t.val / 16 ∧ win0_1.index t (1 : Fin 3) = 0
    ∧ win0_1.index t (2 : Fin 3) = 0 :=
  (by decide +kernel : ∀ t : Fin grid0.N, _)

/-- Row `r`, channel `k` of the sampled points' block at `t` is sampled point `nOf t r` of batch `bOf t`. -/
theorem iblk0_apply (c : Dev nD) (t : Fin cfg0.N) (r : Fin 1024) (k : Fin 4) :
    iblk (F := Ideal) m c 0 t (ix3 (0 : Fin 1) r k) = X m c (ix3 (bOf t) (nOf t r) k) := by
  obtain ⟨e0, e1, e2, e3, e4, e5⟩ := idx_facts t
  show V m c main_arg0 (((cfg0.win 0).blk t).view.emb (ix3 (0 : Fin 1) r k)) = V m c main_arg0 (ix3 (bOf t) (nOf t r) k)
  refine congrArg _ ?_
  funext a; apply Fin.ext
  match a with
  | ⟨0, _⟩ => show win0_0.index t (0 : Fin 3) * 1 + 1 * (0 : Fin 1).val = t.val / 16; rw [e0]; simp
  | ⟨1, _⟩ => show win0_0.index t (1 : Fin 3) * 1024 + 1 * r.val = 1024 * (t.val % 16) + r.val; rw [e1]; omega
  | ⟨2, _⟩ => show win0_0.index t (2 : Fin 3) * 4 + 1 * k.val = k.val; rw [e2]; omega

/-- Row `q`, channel `k` of the surface points' block at `t` is surface point `q` of batch `bOf t`. -/
theorem iblk1_apply (c : Dev nD) (t : Fin cfg0.N) (q : Fin 2048) (k : Fin 3) :
    iblk (F := Ideal) m c 1 t (ix3 (0 : Fin 1) q k) = Y m c (ix3 (bOf t) q k) := by
  obtain ⟨e0, e1, e2, e3, e4, e5⟩ := idx_facts t
  show V m c main_arg1 (((cfg0.win 1).blk t).view.emb (ix3 (0 : Fin 1) q k)) = V m c main_arg1 (ix3 (bOf t) q k)
  refine congrArg _ ?_
  funext a; apply Fin.ext
  match a with
  | ⟨0, _⟩ => show win0_1.index t (0 : Fin 3) * 1 + 1 * (0 : Fin 1).val = t.val / 16; rw [e3]; simp
  | ⟨1, _⟩ => show win0_1.index t (1 : Fin 3) * 2048 + 1 * q.val = q.val; rw [e4]; omega
  | ⟨2, _⟩ => show win0_1.index t (2 : Fin 3) * 3 + 1 * k.val = k.val; rw [e5]; omega

/-! ## The tile's quantities are the arrays' -/

theorem bxrow_eq (c : Dev nD) (t : Fin cfg0.N) (r : Fin 1024) :
    bxrow (iblk (F := Ideal) m c 0 t) r = xrow (X m c) (bOf t) (nOf t r) :=
  funext fun k => iblk0_apply m c t r (lift3 k)

theorem byrow_eq (c : Dev nD) (t : Fin cfg0.N) (q : Fin 2048) :
    byrow (iblk (F := Ideal) m c 1 t) q = yrow (Y m c) (bOf t) q :=
  funext fun k => iblk1_apply m c t q k

theorem bdist_eq (c : Dev nD) (t : Fin cfg0.N) (r : Fin 1024) (q : Fin 2048) :
    bdist (iblk (F := Ideal) m c 0 t) (iblk (F := Ideal) m c 1 t) r q = dist (X m c) (Y m c) (bOf t) (nOf t r) q := by
  unfold bdist Cert.Chamfer.dist
  rw [bxrow_eq, byrow_eq]

theorem bRowMin_eq (c : Dev nD) (t : Fin cfg0.N) (r : Fin 1024) :
    bRowMin (iblk (F := Ideal) m c 0 t) (iblk (F := Ideal) m c 1 t) r = rowMin (X m c) (Y m c) (bOf t) (nOf t r) := by
  unfold bRowMin rowMin
  exact Finset.fold_congr fun q _ => bdist_eq m c t r q

/-- What a point leaves in the row-minimum buffer: the row minima of its tile's sampled points. -/
theorem after2_apply (c : Dev nD) (t : Fin cfg0.N) (r : Fin 1024) :
    (dats (F := Ideal) m 0 c).after 2 t (ix3 (0 : Fin 1) r (0 : Fin 1)) = rowMin (X m c) (Y m c) (bOf t) (nOf t r) := by
  rw [after0_2]
  unfold rowOut
  rw [pay1_apply, pay6_apply, bRowMin_eq]

/-! ## The running column minimum -/

/-- A property of every row of the tile at `t` is the property of every sampled point in the tile's range. -/
theorem tile_forall (t : Fin cfg0.N) (P : Fin 16384 → Prop) :
    (∀ r : Fin 1024, P (nOf t r)) ↔
      ∀ n : Fin 16384, 1024 * (t.val % 16) ≤ n.val → n.val < 1024 * (t.val % 16 + 1) → P n := by
  constructor
  · intro h n h1 h2
    have hn : n = nOf t ⟨n.val - 1024 * (t.val % 16), by omega⟩ :=
      Fin.ext (by show n.val = 1024 * (t.val % 16) + (n.val - 1024 * (t.val % 16)); omega)
    rw [hn]; exact h _
  · intro h r
    have hr := r.isLt
    exact h (nOf t r) (by show 1024 * (t.val % 16) ≤ 1024 * (t.val % 16) + r.val; omega)
      (by show 1024 * (t.val % 16) + r.val < 1024 * (t.val % 16 + 1); omega)

/-- The tile's column minimum at `q`, by its lower bounds: those of +∞ and of every distance from the tile's sampled
    points to `q`. -/
theorem le_tileCol (c : Dev nD) (t : Fin cfg0.N) (q : Fin 2048) (z : EReal) :
    z ≤ k0_pay2 (F := Ideal) (k0_pay5 (F := Ideal) (iblk (F := Ideal) m c 0 t) (iblk (F := Ideal) m c 1 t)) (ix1 q) ↔
      z ≤ pinf ∧ ∀ n : Fin 16384, 1024 * (t.val % 16) ≤ n.val → n.val < 1024 * (t.val % 16 + 1) →
        z ≤ dist (X m c) (Y m c) (bOf t) n q := by
  rw [pay2_apply, Finset.le_fold_min, ← tile_forall t (fun n => z ≤ dist (X m c) (Y m c) (bOf t) n q)]
  refine and_congr_right fun _ => ⟨fun h r => ?_, fun h r _ => ?_⟩
  · have := h r (Finset.mem_univ r); rwa [pay5_apply, bdist_eq] at this
  · rw [pay5_apply, bdist_eq]; exact h r

/-- The running minimum after tile `j` of a batch, by its lower bounds: those of +∞ and of every distance from the
    sampled points of tiles `0 … j` to `q`. -/
theorem le_colAt (c : Dev nD) (q : Fin 2048) : ∀ (j : ℕ) (t : Fin cfg0.N), t.val % 16 = j → ∀ z : EReal,
    z ≤ colAt (F := Ideal) m c t.val t.isLt (ix3 (0 : Fin 1) q (0 : Fin 1)) ↔
      z ≤ pinf ∧ ∀ n : Fin 16384, n.val < 1024 * (j + 1) → z ≤ dist (X m c) (Y m c) (bOf t) n q := by
  intro j
  induction j with
  | zero =>
    intro t ht z
    rw [colAt_A m c t ht]
    unfold colA
    rw [pay3_apply, le_tileCol, ht]
    exact and_congr_right fun _ => ⟨fun h n hn => h n (by omega) (by omega), fun h n _ hn => h n (by omega)⟩
  | succ j ih =>
    intro t ht z
    have hN : t.val < 64 := lt_of_lt_of_eq t.isLt N64
    have h0 : ¬ t.val % 16 = 0 := by omega
    have hlt : t.val - 1 < cfg0.N := Nat.lt_of_le_of_lt (Nat.sub_le _ _) t.isLt
    have hb : bOf ⟨t.val - 1, hlt⟩ = bOf t := Fin.ext (by show (t.val - 1) / 16 = t.val / 16; omega)
    have hprev := ih ⟨t.val - 1, hlt⟩ (by show (t.val - 1) % 16 = j; omega) z
    rw [hb] at hprev
    rw [colAt_B m c t h0]
    unfold colB
    rw [pay4_apply, le_min_iff, le_tileCol, ht]
    constructor
    · rintro ⟨h1, h2, h3⟩
      refine ⟨h2, fun n hn => ?_⟩
      by_cases hc : n.val < 1024 * (j + 1)
      · exact (hprev.mp h1).2 n hc
      · exact h3 n (by omega) (by omega)
    · rintro ⟨h1, h2⟩
      exact ⟨hprev.mpr ⟨h1, fun n hn => h2 n (by omega)⟩, h1, fun n _ hn => h2 n (by omega)⟩

/-- What the last tile of a batch leaves in the column-minimum buffer: the column minima over all the batch's sampled points. -/
theorem after3_apply (c : Dev nD) (t : Fin cfg0.N) (h : t.val % 16 = 15) (q : Fin 2048) :
    (dats (F := Ideal) m 0 c).after 3 t (ix3 (0 : Fin 1) q (0 : Fin 1)) = colMin (X m c) (Y m c) (bOf t) q := by
  rw [after0_3]
  refine eq_of_forall_le_iff (α := EReal) fun z => ?_
  rw [le_colAt m c q 15 t h z]
  unfold colMin
  rw [Finset.le_fold_min]
  exact and_congr_right fun _ => ⟨fun h n _ => h n (by have := n.isLt; omega), fun h n _ => h n (Finset.mem_univ n)⟩

end Cert.KernelIdeal.Blocks

end
-- ==== Proof.KFinal.lean ====
/-
  The idealized kernel's two output arrays after the run, and its scalar result.

  Every point writes its row-minimum block back, and the blocks tile the array: point `t` covers sampled points
  `1024·(t % 16) … 1024·(t % 16) + 1023` of batch `t / 16`; each block is the restriction of one function of the
  argument arrays, `rowMin`, so the array ends holding it.  The column-minimum block of a batch is written back
  after the batch's last tile only, when it holds `colMin`; the four blocks tile the array.  The host lines after the
  region drop the trailing unit axis of both arrays and apply the chain `tail`.
-/
import proofs.«147430_j70480413328153_1_alg».proof.Proof.KBlocks
import Idealize.ShloMosaic.Lib.StableHlo.Run

set_option maxRecDepth 16384

noncomputable section

namespace Cert.KernelIdeal.Final

open Cert.KernelIdeal Cert.KernelIdeal.Gen Cert.KernelIdeal.Body Cert.KernelIdeal.Blocks Cert.Chamfer
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output windows' index maps, decided over the grid: point `t` is tile `t % 16` of batch `t / 16`. -/
theorem idx_facts : ∀ t : Fin cfg0.N, win0_2.index t (0 : Fin 3) = t.val / 16 ∧ win0_2.index t (1 : Fin 3) = t.val % 16
    ∧ win0_2.index t (2 : Fin 3) = 0 ∧ win0_3.index t (0 : Fin 3) = t.val / 16 ∧ win0_3.index t (1 : Fin 3) = 0
    ∧ win0_3.index t (2 : Fin 3) = 0 :=
  (by decide +kernel : ∀ t : Fin grid0.N, _)

/-- An index of a `[1, n, 1]` block is its middle coordinate. -/
theorem unit_mid_unit {n : Nat} (j : (⟨3, ![1, n, 1]⟩ : Shape).Idx) : j = ix3 (0 : Fin 1) (j 1) (0 : Fin 1) := by
  funext a
  match a with
  | ⟨0, _⟩ => exact Fin.ext (by have h : (j 0).val < 1 := (j 0).isLt; show (j 0).val = 0; omega)
  | ⟨1, _⟩ => rfl
  | ⟨2, _⟩ => exact Fin.ext (by have h : (j 2).val < 1 := (j 2).isLt; show (j 2).val = 0; omega)

/-! ## The row minima -/

/-- The row-minimum array the blocks are restrictions of. -/
abbrev G2 (c : Dev nD) : S4x16384x1.Idx → EReal := fun i => rowMin (X m c) (Y m c) (i 0) (i 1)

/-- An element a point leaves in the row-minimum buffer is the array's element under it. -/
theorem after2_emb (c : Dev nD) (t : Fin cfg0.N) (j : S1x1024x1.Idx) :
    (dats (F := Ideal) m 0 c).after 2 t j = G2 m c (((cfg0.win 2).blk t).view.emb j) := by
  obtain ⟨e0, e1, e2, -, -, -⟩ := idx_facts t
  obtain ⟨r, rfl⟩ : ∃ r : Fin 1024, j = ix3 (0 : Fin 1) r (0 : Fin 1) := ⟨j 1, unit_mid_unit j⟩
  rw [after2_apply]
  show rowMin (X m c) (Y m c) (bOf t) (nOf t r) = rowMin (X m c) (Y m c) _ _
  congr 1
  · apply Fin.ext; show t.val / 16 = win0_2.index t (0 : Fin 3) * 1 + 1 * 0; omega
  · apply Fin.ext; show 1024 * (t.val % 16) + r.val = win0_2.index t (1 : Fin 3) * 1024 + 1 * r.val; omega

theorem flushed2_eq (c : Dev nD) (t : Fin cfg0.N) :
    (dats (F := Ideal) m 0 c).flushed 2 t = ((cfg0.win 2).blk t).view.read (Elt Ideal) (G2 m c) := by
  show (cfg0.win 2).cut (grid0.coords t) ((dats m 0 c).after 2 t) = _
  funext j
  exact after2_emb m c t j

theorem mem_blk2 (t : Fin cfg0.N) (i : S4x16384x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v0_0).slice (win0_2.rect t)).set ↔ _
  rw [View.set_slice_whole, Rect.mem_set_unit]
  exact Iff.rfl

/-- Every sampled point lies in the block of its tile's point. -/
theorem cover2 (i : S4x16384x1.Idx) : ∃ t : Fin cfg0.N, (cfg0.win 2).flush t = true ∧ i ∈ ((cfg0.win 2).blk t).view.set := by
  have h0 : (i 0).val < 4 := (i 0).isLt
  have h1 : (i 1).val < 16384 := (i 1).isLt
  have h2 : (i 2).val < 1 := (i 2).isLt
  have hN : 16 * (i 0).val + (i 1).val / 1024 < cfg0.N := lt_of_lt_of_eq (by omega) Body.N64.symm
  refine ⟨⟨16 * (i 0).val + (i 1).val / 1024, hN⟩, flush0_2 _, ?_⟩
  rw [mem_blk2]
  obtain ⟨e0, e1, e2, -, -, -⟩ := idx_facts ⟨16 * (i 0).val + (i 1).val / 1024, hN⟩
  dsimp only at e0 e1 e2
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1024 ≤ (i 1).val ∧ (i 1).val < win0_2.index _ (1 : Fin 3) * 1024 + 1024; omega
  | ⟨2, _⟩ => show win0_2.index _ (2 : Fin 3) * 1 ≤ (i 2).val ∧ (i 2).val < win0_2.index _ (2 : Fin 3) * 1 + 1; omega

/-- The row-minimum array after the run. -/
theorem final2 (c : Dev nD) :
    (dats (F := Ideal) m 0 c).arrAt 2 cfg0.N = (fun i : S4x16384x1.Idx => rowMin (X m c) (Y m c) (i 0) (i 1)) :=
  (dats m 0 c).arrAt_eq_of_cover 2 (G2 m c) (fun t _ => flushed2_eq m c t) cover2

/-! ## The column minima -/

abbrev G3 (c : Dev nD) : S4x2048x1.Idx → EReal := fun i => colMin (X m c) (Y m c) (i 0) (i 1)

theorem after3_emb (c : Dev nD) (t : Fin cfg0.N) (h : t.val % 16 = 15) (j : S1x2048x1.Idx) :
    (dats (F := Ideal) m 0 c).after 3 t j = G3 m c (((cfg0.win 3).blk t).view.emb j) := by
  obtain ⟨-, -, -, e0, e1, e2⟩ := idx_facts t
  obtain ⟨q, rfl⟩ : ∃ q : Fin 2048, j = ix3 (0 : Fin 1) q (0 : Fin 1) := ⟨j 1, unit_mid_unit j⟩
  rw [after3_apply m c t h]
  show colMin (X m c) (Y m c) (bOf t) q = colMin (X m c) (Y m c) _ _
  congr 1
  · apply Fin.ext; show t.val / 16 = win0_3.index t (0 : Fin 3) * 1 + 1 * 0; omega
  · apply Fin.ext; show q.val = win0_3.index t (1 : Fin 3) * 2048 + 1 * q.val; omega

set_option maxRecDepth 131072 in
theorem flushed3_eq (c : Dev nD) (t : Fin cfg0.N) (hf : (cfg0.win 3).flush t = true) :
    (dats (F := Ideal) m 0 c).flushed 3 t = ((cfg0.win 3).blk t).view.read (Elt Ideal) (G3 m c) := by
  show (cfg0.win 3).cut (grid0.coords t) ((dats m 0 c).after 3 t) = _
  funext j
  exact after3_emb m c t ((flush0_3 t).mp hf) j

theorem mem_blk3 (t : Fin cfg0.N) (i : S4x2048x1.Idx) :
    i ∈ ((cfg0.win 3).blk t).view.set ↔ ∀ a : Fin 3, win0_3.index t a * S1x2048x1.size a ≤ (i a).val ∧ (i a).val < win0_3.index t a * S1x2048x1.size a + S1x2048x1.size a := by
  show i ∈ ((View.whole main_v0_1).slice (win0_3.rect t)).set ↔ _
  rw [View.set_slice_whole, Rect.mem_set_unit]
  exact Iff.rfl

/-- Every surface point of a batch lies in the block the batch's last tile writes back. -/
theorem cover3 (i : S4x2048x1.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1 := (i 2).isLt
  have hN : 16 * (i 0).val + 15 < cfg0.N := lt_of_lt_of_eq (by omega) Body.N64.symm
  refine ⟨⟨16 * (i 0).val + 15, hN⟩, (flush0_3 _).mpr (by show (16 * (i 0).val + 15) % 16 = 15; omega), ?_⟩
  rw [mem_blk3]
  obtain ⟨-, -, -, e0, e1, e2⟩ := idx_facts ⟨16 * (i 0).val + 15, hN⟩
  dsimp only at e0 e1 e2
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 2048 ≤ (i 1).val ∧ (i 1).val < win0_3.index _ (1 : Fin 3) * 2048 + 2048; omega
  | ⟨2, _⟩ => show win0_3.index _ (2 : Fin 3) * 1 ≤ (i 2).val ∧ (i 2).val < win0_3.index _ (2 : Fin 3) * 1 + 1; omega

/-- The column-minimum array after the run. -/
theorem final3 (c : Dev nD) :
    (dats (F := Ideal) m 0 c).arrAt 3 cfg0.N = (fun i : S4x2048x1.Idx => colMin (X m c) (Y m c) (i 0) (i 1)) :=
  (dats m 0 c).arrAt_eq_of_cover 3 (G3 m c) (fun t hf => flushed3_eq m c t hf) cover3

/-! ## The scalar result -/

/-- Dropping a trailing unit axis reads the operand at the same leading coordinates. -/
theorem squeeze_last_apply {a b : Nat} (G : (⟨3, ![a, b, 1]⟩ : Shape).Idx → EReal)
    (h : (⟨3, ![a, b, 1]⟩ : Shape).ShapeCasts ⟨2, ![a, b]⟩) (j : (⟨2, ![a, b]⟩ : Shape).Idx) :
    shapeCast ⟨2, ![a, b]⟩ G h j = G (ix3 (j 0) (j 1) (0 : Fin 1)) :=
  shapeCast_apply G h j _ (by
    rw [Shape.rowMajor_val_three, Shape.rowMajor_val_two]
    show ((j 0).val * b + (j 1).val) * 1 + 0 = (j 0).val * b + (j 1).val
    omega)

/-- The program's result after the host lines that follow the region. -/
theorem result (c : Dev nD) :
    Pipeline.afterTail₀ cfgs (dats (F := Ideal) m) 0 (V0 m) [hostOps1] c main_v17
      = tail (fun j => rowMin (X m c) (Y m c) (j 0) (j 1)) (fun j => colMin (X m c) (Y m c) (j 0) (j 1)) := by
  unfold Pipeline.afterTail₀
  show StableHlo.after hostOps1 _ (Proc.devRef .tc main_v17) = _
  after_results
  have hW2 : Pipeline.withArrays (cfgs 0).spec c (V0 m c) (fun w => (dats (F := Ideal) m 0 c).arrAt w (cfgs 0).N) (Proc.devRef .tc main_v0_0)
      = (fun i : S4x16384x1.Idx => rowMin (X m c) (Y m c) (i 0) (i 1)) :=
    (Pipeline.withArrays_arr spec0 launch0.win.arr_inj c _ _ 2).trans (final2 m c)
  have hW3 : Pipeline.withArrays (cfgs 0).spec c (V0 m c) (fun w => (dats (F := Ideal) m 0 c).arrAt w (cfgs 0).N) (Proc.devRef .tc main_v0_1)
      = (fun i : S4x2048x1.Idx => colMin (X m c) (Y m c) (i 0) (i 1)) :=
    (Pipeline.withArrays_arr spec0 launch0.win.arr_inj c _ _ 3).trans (final3 m c)
  rw [hW2, hW3]
  refine (?_ : tail _ _ = _)
  refine congrArg₂ tail ?_ ?_
  · funext j
    exact squeeze_last_apply (fun i : S4x16384x1.Idx => rowMin (X m c) (Y m c) (i 0) (i 1)) shapeCasts_S4x16384x1_S4x16384 j
  · funext j
    exact squeeze_last_apply (fun i : S4x2048x1.Idx => colMin (X m c) (Y m c) (i 0) (i 1)) shapeCasts_S4x2048x1_S4x2048 j

/-- The run with its result named: every weakly fair execution of the idealized kernel's @main terminates with the
    result at the shared host chain of the row minima and the column minima, the arguments unchanged. -/
theorem run : θ_run defs (onTc (τ := τ) (main (F := Ideal))) ⟨m, fun _ => 0, ρ⟩ (fun r => ∀ c : Dev nD,
      r.2.mem ((c.tc : Thread nD τ).loc main_v17)
        = tail (fun j => rowMin (X m c) (Y m c) (j 0) (j 1)) (fun j => colMin (X m c) (Y m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v17 (Pipeline.mem_restRefs_of main_v17 rfl (by decide))).trans (result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main (F := Ideal) m ρ)

end Cert.KernelIdeal.Final

end
-- ==== Proof.RefVal.lean ====
/-
  The reference program's result read back as the specification's quantities.

  Its distance tensor at `(b, n, q)` is `dist3` of sampled point `n`'s first three channels and surface point `q`'s
  coordinates: the two squared norms are sums over the three coordinates, broadcast along the other point's axis, the
  cross term is the contraction over the three coordinates, and the clamp and the square root act entry by entry. Its
  two minimum tables are folds of `min` from +∞ along one axis of that tensor: along the surface points for the row
  table, along the sampled points for the column table. Its scalar result is, operation for operation, `tail` of the
  two tables.
-/
import proofs.«147430_j70480413328153_1_alg».proof.Proof.Gen.ReferenceIdeal.Run
import proofs.«147430_j70480413328153_1_alg».proof.Proof.Gen.ReferenceIdeal.Read
import proofs.«147430_j70480413328153_1_alg».proof.Proof.Spec
import Idealize.ShloMosaic.Lib.ValueIdx
import Idealize.ShloMosaic.PureOps.Reduce
import Idealize.ShloMosaic.PureOps.Ideal.Laws

noncomputable section

namespace Cert.ReferenceIdeal.RefVal

open Cert.ReferenceIdeal Cert.ReferenceIdeal.Gen Cert.ReferenceIdeal.Read Cert.Chamfer
open Idealize.ShloMosaic Idealize.ShloMosaic.ValueIdx

/-! ## The distance tensor -/

/-- The sampled point's channel read through the slice and the two broadcasts of the squared norm. -/
private theorem idx_xx (b : Fin 4) (n : Fin 16384) (q : Fin 2048) (k : Fin 3) :
    idx_main_v0 (idx_main_v2 (idx_main_v6 (idx_main_v8 (ix3 b n q))) k) = ix3 b n (lift3 k) :=
  funext fun a => Fin.ext (by match a with | ⟨0, _⟩ => rfl | ⟨1, _⟩ => rfl | ⟨2, _⟩ => rfl)

/-- The surface point's coordinate read through the two broadcasts of the squared norm. -/
private theorem idx_yy (b : Fin 4) (n : Fin 16384) (q : Fin 2048) (k : Fin 3) :
    idx_main_v4 (idx_main_v7 (idx_main_v9 (ix3 b n q))) k = ix3 b q k :=
  funext fun a => Fin.ext (by match a with | ⟨0, _⟩ => rfl | ⟨1, _⟩ => rfl | ⟨2, _⟩ => rfl)

/-- The sampled point's channel as the contraction reads it. -/
private theorem idx_xl (b : Fin 4) (n : Fin 16384) (q : Fin 2048) (k : Fin 3) :
    idx_main_v0 (lidx_main_v5 (ix3 b n q) k) = ix3 b n (lift3 k) :=
  funext fun a => Fin.ext (by match a with | ⟨0, _⟩ => rfl | ⟨1, _⟩ => rfl | ⟨2, _⟩ => rfl)

/-- The surface point's coordinate as the contraction reads it. -/
private theorem idx_yr (b : Fin 4) (n : Fin 16384) (q : Fin 2048) (k : Fin 3) :
    ridx_main_v5 (ix3 b n q) k = ix3 b q k :=
  funext fun a => Fin.ext (by match a with | ⟨0, _⟩ => rfl | ⟨1, _⟩ => rfl | ⟨2, _⟩ => rfl)

theorem ref_dist (X : (⟨S4x16384x4, .f32⟩ : BufTy).Contents (Elt Ideal)) (Y : (⟨S4x2048x3, .f32⟩ : BufTy).Contents (Elt Ideal))
    (b : Fin 4) (n : Fin 16384) (q : Fin 2048) :
    val_main_v16 (F := Ideal) X Y (ix3 b n q) = dist X Y b n q := by
  simp only [val_main_v16_apply, val_main_v15_apply, val_main_v13_apply, val_main_v10_apply, val_main_v8_apply,
    val_main_v6_apply, val_main_v2_apply, val_main_v1_apply, val_main_v0_apply, val_main_v9_apply, val_main_v7_apply,
    val_main_v4_apply, val_main_v3_apply, val_main_v12_apply, val_main_v11_apply, val_main_v5_apply, val_main_v14_apply,
    val_main_cst_apply, val_main_cst_0_apply, val_main_cst_1_apply, val_main_cst_2_apply,
    idx_xx, idx_yy, idx_xl, idx_yr,
    Ideal.hostUnary_sqrt_def, Ideal.maximumf_def, Ideal.subf_def, Ideal.addf_def, Ideal.mulf_def, Ideal.ofBits_def,
    Ideal.ofBits_zero_f32, zero_add, Cert.Chamfer.dist, Cert.Chamfer.dist3, Cert.Chamfer.xrow, Cert.Chamfer.yrow]

/-! ## The two minimum tables -/

/-- The distance tensor loses its last axis to the row table … -/
private theorem red_row : S4x16384x2048.Reduces [2] S4x16384 := by decide
/-- … and its middle axis to the column table. -/
private theorem red_col : S4x16384x2048.Reduces [1] S4x2048 := by decide

/-- The row index `(b, n)` with surface point `k` put back is `(b, n, k)`. -/
private theorem lift_row (b : Fin 4) (n : Fin 16384) (k : Fin (S4x16384x2048.size 2)) :
    red_row.lift (ix2 b n) k = ix3 b n (⟨k.val, k.isLt⟩ : Fin 2048) :=
  funext fun c => Fin.ext (by match c with | ⟨0, _⟩ => rfl | ⟨1, _⟩ => rfl | ⟨2, _⟩ => rfl)

/-- The column index `(b, q)` with sampled point `k` put back is `(b, k, q)`. -/
private theorem lift_col (b : Fin 4) (q : Fin 2048) (k : Fin (S4x16384x2048.size 1)) :
    red_col.lift (ix2 b q) k = ix3 b (⟨k.val, k.isLt⟩ : Fin 16384) q :=
  funext fun c => Fin.ext (by match c with | ⟨0, _⟩ => rfl | ⟨1, _⟩ => rfl | ⟨2, _⟩ => rfl)

/-- A minimum over the last axis from +∞, at `(b, n)`: the least of the row's entries. -/
private theorem reduce_row (x : FVec Ideal S4x16384x2048 .f32) (b : Fin 4) (n : Fin 16384) :
    Host.reduce (FloatOps.minimumf (F := Ideal) (φ := .f32)) x (val_main_cst_4 (F := Ideal))
        reducesTo_S4x16384x2048_S4x16384_d2 h_S_ (ix2 b n)
      = (Finset.univ : Finset (Fin 2048)).fold min pinf (fun q => x (ix3 b n q)) := by
  rw [Host.reduce_eq_fold_single FloatOps.minimumf x _ reducesTo_S4x16384x2048_S4x16384_d2 red_row h_S_]
  have hf : (x ∘ red_row.lift (ix2 b n)) = fun q : Fin 2048 => x (ix3 b n q) :=
    funext fun k => congrArg x (lift_row b n k)
  exact congrArg (fun f => Finset.fold (min : Ideal .f32 → Ideal .f32 → Ideal .f32) pinf f (Finset.univ : Finset (Fin 2048))) hf

/-- A minimum over the middle axis from +∞, at `(b, q)`: the least of the column's entries. -/
private theorem reduce_col (x : FVec Ideal S4x16384x2048 .f32) (b : Fin 4) (q : Fin 2048) :
    Host.reduce (FloatOps.minimumf (F := Ideal) (φ := .f32)) x (val_main_cst_3 (F := Ideal))
        reducesTo_S4x16384x2048_S4x2048_d1 h_S_ (ix2 b q)
      = (Finset.univ : Finset (Fin 16384)).fold min pinf (fun n => x (ix3 b n q)) := by
  rw [Host.reduce_eq_fold_single FloatOps.minimumf x _ reducesTo_S4x16384x2048_S4x2048_d1 red_col h_S_]
  have hf : (x ∘ red_col.lift (ix2 b q)) = fun n : Fin 16384 => x (ix3 b n q) :=
    funext fun k => congrArg x (lift_col b q k)
  exact congrArg (fun f => Finset.fold (min : Ideal .f32 → Ideal .f32 → Ideal .f32) pinf f (Finset.univ : Finset (Fin 16384))) hf

theorem ref_row (X : (⟨S4x16384x4, .f32⟩ : BufTy).Contents (Elt Ideal)) (Y : (⟨S4x2048x3, .f32⟩ : BufTy).Contents (Elt Ideal))
    (b : Fin 4) (n : Fin 16384) :
    val_main_v18 (F := Ideal) X Y (ix2 b n) = rowMin X Y b n := by
  unfold val_main_v18
  rw [reduce_row]
  unfold rowMin
  exact Finset.fold_congr fun q _ => ref_dist X Y b n q

theorem ref_col (X : (⟨S4x16384x4, .f32⟩ : BufTy).Contents (Elt Ideal)) (Y : (⟨S4x2048x3, .f32⟩ : BufTy).Contents (Elt Ideal))
    (b : Fin 4) (q : Fin 2048) :
    val_main_v17 (F := Ideal) X Y (ix2 b q) = colMin X Y b q := by
  unfold val_main_v17
  rw [reduce_col]
  unfold colMin
  exact Finset.fold_congr fun n _ => ref_dist X Y b n q

/-! ## The scalar result -/

theorem ref_tail (X : (⟨S4x16384x4, .f32⟩ : BufTy).Contents (Elt Ideal)) (Y : (⟨S4x2048x3, .f32⟩ : BufTy).Contents (Elt Ideal)) :
    val_main_v33 (F := Ideal) X Y = tail (val_main_v18 (F := Ideal) X Y) (val_main_v17 (F := Ideal) X Y) := by
  unfold val_main_v33 val_main_v32 val_main_v31 val_main_v30 val_main_v29 val_main_v28 val_main_v27 val_main_v26
    val_main_v25 val_main_v24 val_main_v23 val_main_v22 val_main_v21 val_main_v20 val_main_v19
    val_main_cst_13 val_main_cst_12 val_main_cst_11 val_main_cst_10 val_main_cst_9 val_main_cst_8 val_main_cst_7
    val_main_cst_6 val_main_cst_5 tail
  generalize val_main_v18 (F := Ideal) X Y = R
  generalize val_main_v17 (F := Ideal) X Y = C
  rfl

/-- The reference's result is the shared tail of the two minimum tables. -/
theorem ref_result (X : (⟨S4x16384x4, .f32⟩ : BufTy).Contents (Elt Ideal)) (Y : (⟨S4x2048x3, .f32⟩ : BufTy).Contents (Elt Ideal)) :
    val_main_v33 (F := Ideal) X Y = tail (fun j => rowMin X Y (j 0) (j 1)) (fun j => colMin X Y (j 0) (j 1)) := by
  have hR : val_main_v18 (F := Ideal) X Y = fun j => rowMin X Y (j 0) (j 1) :=
    funext fun j => (congrArg (val_main_v18 (F := Ideal) X Y) (eq_ix2 j)).trans (ref_row X Y (j 0) (j 1))
  have hC : val_main_v17 (F := Ideal) X Y = fun j => colMin X Y (j 0) (j 1) :=
    funext fun j => (congrArg (val_main_v17 (F := Ideal) X Y) (eq_ix2 j)).trans (ref_col X Y (j 0) (j 1))
  rw [ref_tail, hR, hC]

end Cert.ReferenceIdeal.RefVal

end
-- ==== Proof.lean ====
/-
  The certificate of the chamfer-style loss kernel against its reference, over the extended reals.

  For four batches of 16384 sampled points (three of their four channels) and 2048 surface points, both programs
  form the distance `sqrt (max (|x|² + |y|² - 2·x·y, 0))` of every sampled point to every surface point of its batch,
  the least distance of each sampled point to the surface points (row minima) and of each surface point to the
  sampled points (column minima), and return the mean over the batches of
  `5 · mean (column minima) + 1 · mean (row minima) + max (row minima)`.

  The kernel walks a batch in sixteen tiles of 1024 sampled points: each tile writes its row minima, and the
  column minima are a running minimum kept in the output buffer across the tiles of a batch (written at the first
  tile, lowered at each later one, written back after the last).  Its frame is proved once for any float
  instance (the body's two branches decided from the grid point) and read at the word-level instance and at the
  ideal one.  At the ideal instance the row-minimum array is the specification's `rowMin` (each block is a
  restriction of it), the column-minimum array its `colMin` (the running minimum after the sixteenth tile has the
  lower bounds of the minimum over all 16384 sampled points), and the scalar result is the shared host chain
  `tail` of the two.  The reference's run, read stage by stage, is the same `tail` of the same two tables: its
  contraction over the three channels is the kernel's three products summed, its two reductions the same folds.
-/
import proofs.«147430_j70480413328153_1_alg».proof.Defs
import proofs.«147430_j70480413328153_1_alg».proof.Proof.Gen.Kernel
import proofs.«147430_j70480413328153_1_alg».proof.Proof.Gen.KernelIdeal
import proofs.«147430_j70480413328153_1_alg».proof.Proof.Gen.ReferenceIdeal
import proofs.«147430_j70480413328153_1_alg».proof.Proof.Gen.Pre_finite_inputs
import proofs.«147430_j70480413328153_1_alg».proof.Proof.Gen.ReferenceIdeal.Run
import proofs.«147430_j70480413328153_1_alg».proof.Proof.Gen.ReferenceIdeal.Read
import proofs.«147430_j70480413328153_1_alg».proof.Proof.KBody
import proofs.«147430_j70480413328153_1_alg».proof.Proof.KBodyBits
import proofs.«147430_j70480413328153_1_alg».proof.Proof.KFinal
import proofs.«147430_j70480413328153_1_alg».proof.Proof.RefVal
import Idealize.ShloMosaic.Adequacy
import Idealize.ShloMosaic.Init

noncomputable section

namespace Cert.Proof

open Idealize.ShloMosaic Idealize.SL.Sem Idealize.ShloMosaic.TcCoe Cert.Chamfer

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the shared host chain of the row minima and the column minima of the
    argument arrays. -/
theorem algebraic : Cert.algebraic_KernelIdeal_ReferenceIdeal := by
  intro m ρ m' ρ' _ hagree
  refine ⟨fun c => tail (fun j => rowMin (Cert.KernelIdeal.Blocks.X m c) (Cert.KernelIdeal.Blocks.Y m c) (j 0) (j 1))
      (fun j => colMin (Cert.KernelIdeal.Blocks.X m c) (Cert.KernelIdeal.Blocks.Y m c) (j 0) (j 1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2]
  exact Cert.ReferenceIdeal.RefVal.ref_result _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
